-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S2x262144 : Shape := ⟨2, ![2, 262144]⟩
abbrev S256x128 : Shape := ⟨2, ![256, 128]⟩
abbrev S128 : Shape := ⟨1, ![128]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S8192x256 .f32) (main_arg1 : IVec S2x262144 32) (main_arg2 : FVec F S256x128 .f32) (main_arg3 : FVec F S128 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S8192x256 : Shape := ⟨2, ![8192, 256]⟩
abbrev S2x262144 : Shape := ⟨2, ![2, 262144]⟩
abbrev S256x128 : Shape := ⟨2, ![256, 128]⟩
abbrev S128 : Shape := ⟨1, ![128]⟩
abbrev S8192x128 : Shape := ⟨2, ![8192, 128]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S_ : Shape := ⟨0, ![]⟩
abbrev S270336x1 : Shape := ⟨2, ![270336, 1]⟩
abbrev S270336x128 : Shape := ⟨2, ![270336, 128]⟩
abbrev S1x128 : Shape := ⟨2, ![1, 128]⟩
abbrev S8192x8192 : Shape := ⟨2, ![8192, 8192]⟩
abbrev S1024x128 : Shape := ⟨2, ![1024, 128]⟩
abbrev S1024x1024 : Shape := ⟨2, ![1024, 1024]⟩

abbrev nBuf : Space → Nat
  | .hbm => 62
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S2x262144, .i32⟩
  | .hbm, ⟨2, _⟩ => ⟨S256x128, .f32⟩
  | .hbm, ⟨3, _⟩ => ⟨S128, .f32⟩
  | .hbm, ⟨4, _⟩ => ⟨S8192x128, .f32⟩
  | .hbm, ⟨5, _⟩ => ⟨S8192, .i32⟩
  | .hbm, ⟨6, _⟩ => ⟨S1x262144, .i32⟩
  | .hbm, ⟨7, _⟩ => ⟨S262144, .i32⟩
  | .hbm, ⟨8, _⟩ => ⟨S270336, .i32⟩
  | .hbm, ⟨9, _⟩ => ⟨S1x262144, .i32⟩
  | .hbm, ⟨10, _⟩ => ⟨S262144, .i32⟩
  | .hbm, ⟨11, _⟩ => ⟨S270336, .i32⟩
  | .hbm, ⟨12, _⟩ => ⟨S_, .f32⟩
  | .hbm, ⟨13, _⟩ => ⟨S270336, .f32⟩
  | .hbm, ⟨14, _⟩ => ⟨S_, .f32⟩
  | .hbm, ⟨15, _⟩ => ⟨S8192, .f32⟩
  | .hbm, ⟨16, _⟩ => ⟨S270336x1, .i32⟩
  | .hbm, ⟨17, _⟩ => ⟨S8192, .f32⟩
  | .hbm, ⟨18, _⟩ => ⟨S8192, .f32⟩
  | .hbm, ⟨19, _⟩ => ⟨S_, .i32⟩
  | .hbm, ⟨20, _⟩ => ⟨S270336, .i32⟩
  | .hbm, ⟨21, _⟩ => ⟨S270336, .i1⟩
  | .hbm, ⟨22, _⟩ => ⟨S_, .i32⟩
  | .hbm, ⟨23, _⟩ => ⟨S270336, .i32⟩
  | .hbm, ⟨24, _⟩ => ⟨S270336, .i32⟩
  | .hbm, ⟨25, _⟩ => ⟨S270336, .i32⟩
  | .hbm, ⟨26, _⟩ => ⟨S270336x1, .i32⟩
  | .hbm, ⟨27, _⟩ => ⟨S270336, .f32⟩
  | .hbm, ⟨28, _⟩ => ⟨S_, .i32⟩
  | .hbm, ⟨29, _⟩ => ⟨S270336, .i32⟩
  | .hbm, ⟨30, _⟩ => ⟨S270336, .i1⟩
  | .hbm, ⟨31, _⟩ => ⟨S_, .i32⟩
  | .hbm, ⟨32, _⟩ => ⟨S270336, .i32⟩
  | .hbm, ⟨33, _⟩ => ⟨S270336, .i32⟩
  | .hbm, ⟨34, _⟩ => ⟨S270336, .i32⟩
  | .hbm, ⟨35, _⟩ => ⟨S270336x1, .i32⟩
  | .hbm, ⟨36, _⟩ => ⟨S270336, .f32⟩
  | .hbm, ⟨37, _⟩ => ⟨S270336, .f32⟩
  | .hbm, ⟨38, _⟩ => ⟨S_, .i32⟩
  | .hbm, ⟨39, _⟩ => ⟨S270336, .i32⟩
  | .hbm, ⟨40, _⟩ => ⟨S270336, .i1⟩
  | .hbm, ⟨41, _⟩ => ⟨S_, .i32⟩
  | .hbm, ⟨42, _⟩ => ⟨S270336, .i32⟩
  | .hbm, ⟨43, _⟩ => ⟨S270336, .i32⟩
  | .hbm, ⟨44, _⟩ => ⟨S270336, .i32⟩
  | .hbm, ⟨45, _⟩ => ⟨S270336x1, .i32⟩
  | .hbm, ⟨46, _⟩ => ⟨S270336x128, .f32⟩
  | .hbm, ⟨47, _⟩ => ⟨S270336x1, .f32⟩
  | .hbm, ⟨48, _⟩ => ⟨S270336x128, .f32⟩
  | .hbm, ⟨49, _⟩ => ⟨S270336x128, .f32⟩
  | .hbm, ⟨50, _⟩ => ⟨S_, .f32⟩
  | .hbm, ⟨51, _⟩ => ⟨S8192x128, .f32⟩
  | .hbm, ⟨52, _⟩ => ⟨S270336x1, .i32⟩
  | .hbm, ⟨53, _⟩ => ⟨S8192x128, .f32⟩
  | .hbm, ⟨54, _⟩ => ⟨S1x128, .f32⟩
  | .hbm, ⟨55, _⟩ => ⟨S8192x128, .f32⟩
  | .hbm, ⟨56, _⟩ => ⟨S8192x128, .f32⟩
  | .hbm, ⟨57, _⟩ => ⟨S_, .f32⟩
  | .hbm, ⟨58, _⟩ => ⟨S8192x128, .f32⟩
  | .hbm, ⟨59, _⟩ => ⟨S8192x128, .f32⟩
  | .hbm, ⟨60, _⟩ => ⟨S8192x128, .bf16⟩
  | .hbm, ⟨61, _⟩ => ⟨S8192x8192, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x1024, .f32⟩
  | .local _ .vmem, ⟨5, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_4 : Ref sig .tc := ⟨.hbm, 38, rfl⟩
abbrev main_v28 : Ref sig .tc := ⟨.hbm, 39, rfl⟩
abbrev main_v29 : Ref sig .tc := ⟨.hbm, 40, rfl⟩
abbrev main_c_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_call0_cst : Ref sig .tc := ⟨.hbm, 57, rfl⟩
abbrev main_call0_v0 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x128_0_1 : S270336x1.BroadcastsInDim S270336x128 (![0, 1] : Fin 2 → Fin S270336x128.rank)
  bcast_S_S8192x128 : S_.BroadcastsInDim S8192x128 (![] : Fin 0 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  dot_S8192x256_S256x128_S8192x128_1_0_0_1_n_n_wf : DotDims.WF S8192x256 S256x128 S8192x128 [1] [0] [0] [1] [] []
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  gather_S8192x128_S270336x1_S270336x128_1_0_n_n_0_1_1128_wf : GatherDims.WF S8192x128 S270336x1 S270336x128 [1] [0] [] [0] [] 1 ![1, 128]
  scatter_S8192x128_S270336x1_S270336x128_1_0_0_1_wf : ScatterDims.WF S8192x128 S270336x1 S270336x128 [1] [0] [0] 1
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def gather_S8192x128_S270336x1_S270336x128_1_0_n_n_0_1_1128 : GatherDims S8192x128 S270336x1 S270336x128 where
  offsetDims := [1]
  collapsedSliceDims := [0]
  operandBatchingDims := []
  startIndicesBatchingDims := []
  startIndexMap := [0]
  indexVectorDim := 1
  sliceSizes := ![1, 128]
  wf := gather_S8192x128_S270336x1_S270336x128_1_0_n_n_0_1_1128_wf
def scatter_S8192x128_S270336x1_S270336x128_1_0_0_1 : ScatterDims S8192x128 S270336x1 S270336x128 where
  updateWindowDims := [1]
  insertedWindowDims := [0]
  scatterDimsToOperandDims := [0]
  indexVectorDim := 1
  wf := scatter_S8192x128_S270336x1_S270336x128_1_0_0_1_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_v45) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v46) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x256 : Shape := ⟨2, ![8192, 256]⟩
abbrev S2x262144 : Shape := ⟨2, ![2, 262144]⟩
abbrev S256x128 : Shape := ⟨2, ![256, 128]⟩
abbrev S128 : Shape := ⟨1, ![128]⟩
abbrev S8192x128 : Shape := ⟨2, ![8192, 128]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S_ : Shape := ⟨0, ![]⟩
abbrev S270336x1 : Shape := ⟨2, ![270336, 1]⟩
abbrev S270336x128 : Shape := ⟨2, ![270336, 128]⟩
abbrev S1x128 : Shape := ⟨2, ![1, 128]⟩
abbrev S128x8192 : Shape := ⟨2, ![128, 8192]⟩
abbrev S8192x8192 : Shape := ⟨2, ![8192, 8192]⟩

abbrev nBuf : Space → Nat
  | .hbm => 70
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S2x262144, .i32⟩
  | .hbm, ⟨2, _⟩ => ⟨S256x128, .f32⟩
  | .hbm, ⟨3, _⟩ => ⟨S128, .f32⟩
  | .hbm, ⟨4, _⟩ => ⟨S8192x128, .f32⟩
  | .hbm, ⟨5, _⟩ => ⟨S8192, .i32⟩
  | .hbm, ⟨6, _⟩ => ⟨S1x262144, .i32⟩
  | .hbm, ⟨7, _⟩ => ⟨S262144, .i32⟩
  | .hbm, ⟨8, _⟩ => ⟨S270336, .i32⟩
  | .hbm, ⟨9, _⟩ => ⟨S1x262144, .i32⟩
  | .hbm, ⟨10, _⟩ => ⟨S262144, .i32⟩
  | .hbm, ⟨11, _⟩ => ⟨S270336, .i32⟩
  | .hbm, ⟨12, _⟩ => ⟨S_, .f32⟩
  | .hbm, ⟨13, _⟩ => ⟨S270336, .f32⟩
  | .hbm, ⟨14, _⟩ => ⟨S_, .f32⟩
  | .hbm, ⟨15, _⟩ => ⟨S8192, .f32⟩
  | .hbm, ⟨16, _⟩ => ⟨S270336x1, .i32⟩
  | .hbm, ⟨17, _⟩ => ⟨S8192, .f32⟩
  | .hbm, ⟨18, _⟩ => ⟨S8192, .f32⟩
  | .hbm, ⟨19, _⟩ => ⟨S_, .i32⟩
  | .hbm, ⟨20, _⟩ => ⟨S270336, .i32⟩
  | .hbm, ⟨21, _⟩ => ⟨S270336, .i1⟩
  | .hbm, ⟨22, _⟩ => ⟨S_, .i32⟩
  | .hbm, ⟨23, _⟩ => ⟨S270336, .i32⟩
  | .hbm, ⟨24, _⟩ => ⟨S270336, .i32⟩
  | .hbm, ⟨25, _⟩ => ⟨S270336, .i32⟩
  | .hbm, ⟨26, _⟩ => ⟨S270336x1, .i32⟩
  | .hbm, ⟨27, _⟩ => ⟨S270336, .f32⟩
  | .hbm, ⟨28, _⟩ => ⟨S_, .i32⟩
  | .hbm, ⟨29, _⟩ => ⟨S270336, .i32⟩
  | .hbm, ⟨30, _⟩ => ⟨S270336, .i1⟩
  | .hbm, ⟨31, _⟩ => ⟨S_, .i32⟩
  | .hbm, ⟨32, _⟩ => ⟨S270336, .i32⟩
  | .hbm, ⟨33, _⟩ => ⟨S270336, .i32⟩
  | .hbm, ⟨34, _⟩ => ⟨S270336, .i32⟩
  | .hbm, ⟨35, _⟩ => ⟨S270336x1, .i32⟩
  | .hbm, ⟨36, _⟩ => ⟨S270336, .f32⟩
  | .hbm, ⟨37, _⟩ => ⟨S270336, .f32⟩
  | .hbm, ⟨38, _⟩ => ⟨S_, .i32⟩
  | .hbm, ⟨39, _⟩ => ⟨S270336, .i32⟩
  | .hbm, ⟨40, _⟩ => ⟨S270336, .i1⟩
  | .hbm, ⟨41, _⟩ => ⟨S_, .i32⟩
  | .hbm, ⟨42, _⟩ => ⟨S270336, .i32⟩
  | .hbm, ⟨43, _⟩ => ⟨S270336, .i32⟩
  | .hbm, ⟨44, _⟩ => ⟨S270336, .i32⟩
  | .hbm, ⟨45, _⟩ => ⟨S270336x1, .i32⟩
  | .hbm, ⟨46, _⟩ => ⟨S270336x128, .f32⟩
  | .hbm, ⟨47, _⟩ => ⟨S270336x1, .f32⟩
  | .hbm, ⟨48, _⟩ => ⟨S270336x128, .f32⟩
  | .hbm, ⟨49, _⟩ => ⟨S270336x128, .f32⟩
  | .hbm, ⟨50, _⟩ => ⟨S_, .f32⟩
  | .hbm, ⟨51, _⟩ => ⟨S8192x128, .f32⟩
  | .hbm, ⟨52, _⟩ => ⟨S270336x1, .i32⟩
  | .hbm, ⟨53, _⟩ => ⟨S8192x128, .f32⟩
  | .hbm, ⟨54, _⟩ => ⟨S1x128, .f32⟩
  | .hbm, ⟨55, _⟩ => ⟨S8192x128, .f32⟩
  | .hbm, ⟨56, _⟩ => ⟨S8192x128, .f32⟩
  | .hbm, ⟨57, _⟩ => ⟨S_, .f32⟩
  | .hbm, ⟨58, _⟩ => ⟨S8192x128, .f32⟩
  | .hbm, ⟨59, _⟩ => ⟨S8192x128, .f32⟩
  | .hbm, ⟨60, _⟩ => ⟨S128x8192, .f32⟩
  | .hbm, ⟨61, _⟩ => ⟨S8192x8192, .f32⟩
  | .hbm, ⟨62, _⟩ => ⟨S8192x8192, .f32⟩
  | .hbm, ⟨63, _⟩ => ⟨S8192x8192, .f32⟩
  | .hbm, ⟨64, _⟩ => ⟨S_, .f32⟩
  | .hbm, ⟨65, _⟩ => ⟨S8192x8192, .f32⟩
  | .hbm, ⟨66, _⟩ => ⟨S8192x8192, .f32⟩
  | .hbm, ⟨67, _⟩ => ⟨S_, .f32⟩
  | .hbm, ⟨68, _⟩ => ⟨S8192x8192, .f32⟩
  | .hbm, ⟨69, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_4 : Ref sig .tc := ⟨.hbm, 38, rfl⟩
abbrev main_v28 : Ref sig .tc := ⟨.hbm, 39, rfl⟩
abbrev main_v29 : Ref sig .tc := ⟨.hbm, 40, rfl⟩
abbrev main_c_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_call0_cst : Ref sig .tc := ⟨.hbm, 57, rfl⟩
abbrev main_call0_v0 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩
abbrev main_v50 : Ref sig .tc := ⟨.hbm, 66, rfl⟩
abbrev main_cst_8 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x128_0_1 : S270336x1.BroadcastsInDim S270336x128 (![0, 1] : Fin 2 → Fin S270336x128.rank)
  bcast_S_S8192x128 : S_.BroadcastsInDim S8192x128 (![] : Fin 0 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  dot_S8192x256_S256x128_S8192x128_1_0_0_1_n_n_wf : DotDims.WF S8192x256 S256x128 S8192x128 [1] [0] [0] [1] [] []
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  gather_S8192x128_S270336x1_S270336x128_1_0_n_n_0_1_1128_wf : GatherDims.WF S8192x128 S270336x1 S270336x128 [1] [0] [] [0] [] 1 ![1, 128]
  scatter_S8192x128_S270336x1_S270336x128_1_0_0_1_wf : ScatterDims.WF S8192x128 S270336x1 S270336x128 [1] [0] [0] 1
  dot_S8192x128_S128x8192_S8192x8192_1_0_0_1_n_n_wf : DotDims.WF S8192x128 S128x8192 S8192x8192 [1] [0] [0] [1] [] []

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def gather_S8192x128_S270336x1_S270336x128_1_0_n_n_0_1_1128 : GatherDims S8192x128 S270336x1 S270336x128 where
  offsetDims := [1]
  collapsedSliceDims := [0]
  operandBatchingDims := []
  startIndicesBatchingDims := []
  startIndexMap := [0]
  indexVectorDim := 1
  sliceSizes := ![1, 128]
  wf := gather_S8192x128_S270336x1_S270336x128_1_0_n_n_0_1_1128_wf
def scatter_S8192x128_S270336x1_S270336x128_1_0_0_1 : ScatterDims S8192x128 S270336x1 S270336x128 where
  updateWindowDims := [1]
  insertedWindowDims := [0]
  scatterDimsToOperandDims := [0]
  indexVectorDim := 1
  wf := scatter_S8192x128_S270336x1_S270336x128_1_0_0_1_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.LibLaunchShared.lean ====
/-
  A launch of one pipelined kernel region whose windows may stand on ONE array.

  The library's frame run asks that the windows' arrays be pairwise distinct buffers, so that each window
  holds its array outright. When two input windows read the same array (here: one matrix read once by rows
  for the left factor and once by rows for the right factor of a product with its own transpose) the array's
  full share has to be dealt among them. This file states the run with that dealing left as a hypothesis
  (`hsplit`): from the distinct buffers behind the windows' arrays, each whole at the region's entry
  contents, to the proof data's arrays at the shares the data name. Everything else is routed as the
  library's own frame run routes it: the kernel keeps no semaphore of its own, the scoped buffers that no
  window stages reach the body's invariant, and every unscoped buffer that is no window's array passes the
  region by and is read back unchanged.

  The conclusion is the library's `FramePost`: every window's array at `Dat.arrAt … N`, every other
  unscoped buffer at its contents at the region's entry.
-/
import Idealize.ShloMosaic.Lib.Pipeline.Frame

noncomputable section

namespace Idealize.ShloMosaic.Pipeline

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run of one kernel region whose windows may share arrays. `hsplit` deals the buffers behind the
    arrays, whole at the entry contents `V`, to the proof data's arrays at the data's shares; `hin` / `hout`
    take the scoped buffers no window stages into the body's invariant before the first point and back out of
    it after the last. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr; · iempintro
      iexact HU)
    (hin := fun c => (show _ ⊢ (scopedRest (cfgs p).spec c : sProp 𝕄) from by iintro ⟨-, HR⟩; iexact HR).trans (hin c))
    (hout := fun c => (hout c).trans (by
      iintro HR
      isplitr; · iempintro
      iexact HR))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Idealize.ShloMosaic.Pipeline

end
-- ==== Proof.KernelFrame.lean ====
/-
  The frame of the decode kernel: one pipelined region over an 8 × 8 grid of points, run after the host
  operations that build the node embedding z (a dense layer, the symmetric degree normalisation, the
  edge scatter, the bias and the rectifier) and round it to bf16.

  The region has three windows. Windows 0 and 1 both stand on the SAME array, the rounded embedding zb of
  8192 rows by 128 columns: at grid point (i, j) window 0 stages rows 1024·i … 1024·i + 1023 and window 1
  stages rows 1024·j … 1024·j + 1023. Window 2 is the result, 8192 × 8192, whose 1024 × 1024 tile (i, j)
  is written back at that point. The body multiplies the first staged block by the transpose of the second,
  applies the logistic function entry by entry and stores the whole tile; it also reads the result's staging
  buffer once, a value it never uses.

  Because two windows share one array the array's full share is dealt between them: window 0 holds the
  left half of the share and window 1 the right half, which is all an input window needs (the pipeline only
  copies out of it). What the body leaves in the result's buffer is named (`tile`), so that the run's post
  says what every tile of the result holds; the two inputs' buffers are left as the blocks they were.
-/
import proofs.«137021_j65712999629271_1_alg».proof.Proof.Gen.Kernel.Launch
import proofs.«137021_j65712999629271_1_alg».proof.Proof.Gen.Kernel.Skeleton
import proofs.«137021_j65712999629271_1_alg».proof.Proof.Gen.Kernel.Points
import proofs.«137021_j65712999629271_1_alg».proof.Proof.LibLaunchShared
import Idealize.ShloMosaic.Lib.Pipeline.FrameBody
import Idealize.ShloMosaic.Lib.Ring
import Idealize.ShloMosaic.Lib.Tactic

set_option maxRecDepth 16384

noncomputable section

namespace Cert.Kernel.Decode

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core `c`'s buffers when the region is entered: the launch contents after the three stretches of host
    operations (the message passing up to the bias, the rectifier, the rounding to bf16). -/
abbrev entry (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program up to the region: the three stretches run one after the other leave every unscoped buffer at
    `entry`. -/
theorem hmain (𝒱₀ : Variants) :
    Pipeline.HMain (Ix := Unit) (Name := ℕ) (U := UR sig nD τ) (Lvl := ℕ) cfgs 0 defs₀ 𝒱₀ m (main (F := F)) (entry m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes an argument array: the region finds each as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window whose body leaves its block in place holds its block at every point, fetched there or not
    (when it is not fetched the index map has not moved). Window 0: -/
theorem found0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- and window 1. -/
theorem found1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the result's buffer -/

abbrev rIn : Rect S1024x128 := Rect.unit (s := S1024x128) ![0, 0] S1024x128.size inb_S1024x128_S1024x128_0_0
abbrev rOut : Rect S1024x1024 := Rect.unit (s := S1024x1024) ![0, 0] S1024x1024.size inb_S1024x1024_S1024x1024_0_0

/-- The result's staging buffer after the body: its one store, of the logistic of the product of the first block
    with the transpose of the second, over the whole buffer. -/
def tile (x0 x1 : Vec F S1024x128 .bf16) : Vec F S1024x1024 .f32 :=
  View.canon [⟨rOut, k0_pay1 (View.ld x0 rIn) (View.ld x1 rIn)⟩]

/-- The one store covers the buffer. -/
theorem tile_cover (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

set_option maxHeartbeats 1000000 in
/-- The body on whole staging memrefs, the inputs at contents `x0`, `x1` and the result at anything, runs to the
    inputs as they were and the result at `tile x0 x1`. -/
theorem sound_kernel (c : Dev nD) (E : Set ℕ) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024x1024 .f32) (harg4 : arg4.IsWhole)
    (x0 x1 : Vec F S1024x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tile x0 x1)) -∗ K ⟨⟩))
      ⊢ wp frame (wpE (defs₀ (F := F)) Variants.none c none) E (cc0__decode_kernel i arg2 harg2 arg3 harg3 arg4 harg4) K := by
  simp only [cc0__decode_kernel_eq_skeleton]; unfold cc0__decode_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_cover _)

/-! ## The proof data -/

/-- The pipeline's proof data on core `c`: the arrays as the region finds them; after the body each input's buffer
    at its block and the result's at `tile` of the two blocks; the invariant the scoped buffers no window stages;
    nothing owed; the shared array's share halved between its two windows. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => tile (blockAt m c 0 t) (blockAt m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = entry m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = tile (blockAt m c 0 t) (blockAt m c 1 t) := by dsimp only [dats]

theorem found0 (c : Dev nD) (t : Fin cfg0.N) (d) : (dats m 0 c).before 0 t d = blockAt m c 0 t :=
  found0_of m (dats m 0 c) (A_eq m c 0) (after0 m c) t d
theorem found1 (c : Dev nD) (t : Fin cfg0.N) (d) : (dats m 0 c).before 1 t d = blockAt m c 1 t :=
  found1_of m (dats m 0 c) (A_eq m c 1) (after1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ _ _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## Dealing the shared array -/

/-- The two buffers behind the three windows' arrays, whole at the entry contents, are the proof data's arrays at
    entry: the rounded embedding's full share splits into its two halves, one for each window that reads it. -/
theorem split_arrays (c : Dev nD) :
    (Pipeline.arrBufs spec0 c (entry m c) : sProp 𝕄) ⊢ (dats m 0 c).arrays ((dats m 0 c).arrAt · 0) := by
  unfold Pipeline.arrBufs Dat.arrays
  rw [show Finset.univ.image (Pipeline.arrRef spec0) = {main_v45, main_v46} from by decide, bigSep_W0,
    bigSep_insert (by decide), bigSep_singleton]
  have e0 : (cfg0.win 0).arr.view.set = Finset.univ := (arr_whole0 0).set_eq_univ
  have e2 : (cfg0.win 2).arr.view.set = Finset.univ := (arr_whole0 2).set_eq_univ
  rw [e0, e2, show (dats m 0 c).share 0 = fullShare.left from rfl, show (dats m 0 c).share 1 = fullShare.right from rfl,
    show (dats m 0 c).share 2 = fullShare from rfl]
  show iprop((((c.tc : Thread nD τ).loc main_v45) ↦{fullShare} entry m c main_v45) ∗ (((c.tc : Thread nD τ).loc main_v46) ↦{fullShare} entry m c main_v46)) ⊢ _
  iintro ⟨H45, H46⟩
  ihave H := (pointsTo_share (PosShare.mem_left_op_right fullShare)).1 $$ H45
  icases H with ⟨HL, HR⟩
  isplitl [HL]; · iexact HL
  isplitl [HR]; · iexact HR
  iexact H46

/-! ## The run and the frame -/

set_option backward.isDefEq.respectTransparency.types false in
/-- From any memory with zero counters every weakly fair execution of the program terminates; at the end the result
    array holds what the library computes from the proof data (its entry contents overwritten tile by tile by what the
    body left), the rounded embedding is as the region found it, and so is every other unscoped buffer. -/
theorem run_main : θ_run defs (onTc (τ := τ) (main (F := F))) (s₀ m ρ) (Pipeline.FramePost cfgs (dats m) 0 (entry m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := entry m) (hmain := hmain m Variants.none)
    (hsplit := split_arrays m) (hin := fun _ => .rfl) (hout := fun _ => .rfl)

/-- The argument arrays end unchanged: none is a window's array, and no host operation writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (entry_arg0 m c),
     ((h c).2 main_arg1 (Pipeline.mem_restRefs_of main_arg1 (by decide) (by decide))).trans (entry_arg1 m c),
     ((h c).2 main_arg2 (Pipeline.mem_restRefs_of main_arg2 (by decide) (by decide))).trans (entry_arg2 m c),
     ((h c).2 main_arg3 (Pipeline.mem_restRefs_of main_arg3 (by decide) (by decide))).trans (entry_arg3 m c)⟩) (run_main m ρ)

end Cert.Kernel.Decode

end
-- ==== Proof.KernelIdealFrame.lean ====
/-
  The frame of the decode kernel: one pipelined region over an 8 × 8 grid of points, run after the host
  operations that build the node embedding z (a dense layer, the symmetric degree normalisation, the
  edge scatter, the bias and the rectifier) and round it to bf16.

  The region has three windows. Windows 0 and 1 both stand on the SAME array, the rounded embedding zb of
  8192 rows by 128 columns: at grid point (i, j) window 0 stages rows 1024·i … 1024·i + 1023 and window 1
  stages rows 1024·j … 1024·j + 1023. Window 2 is the result, 8192 × 8192, whose 1024 × 1024 tile (i, j)
  is written back at that point. The body multiplies the first staged block by the transpose of the second,
  applies the logistic function entry by entry and stores the whole tile; it also reads the result's staging
  buffer once, a value it never uses.

  Because two windows share one array the array's full share is dealt between them: window 0 holds the
  left half of the share and window 1 the right half, which is all an input window needs (the pipeline only
  copies out of it). What the body leaves in the result's buffer is named (`tile`), so that the run's post
  says what every tile of the result holds; the two inputs' buffers are left as the blocks they were.
-/
import proofs.«137021_j65712999629271_1_alg».proof.Proof.Gen.KernelIdeal.Launch
import proofs.«137021_j65712999629271_1_alg».proof.Proof.Gen.KernelIdeal.Skeleton
import proofs.«137021_j65712999629271_1_alg».proof.Proof.Gen.KernelIdeal.Points
import proofs.«137021_j65712999629271_1_alg».proof.Proof.LibLaunchShared
import Idealize.ShloMosaic.Lib.Pipeline.FrameBody
import Idealize.ShloMosaic.Lib.Ring
import Idealize.ShloMosaic.Lib.Tactic

set_option maxRecDepth 16384

noncomputable section

namespace Cert.KernelIdeal.Decode

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core `c`'s buffers when the region is entered: the launch contents after the three stretches of host
    operations (the message passing up to the bias, the rectifier, the rounding to bf16). -/
abbrev entry (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program up to the region: the three stretches run one after the other leave every unscoped buffer at
    `entry`. -/
theorem hmain (𝒱₀ : Variants) :
    Pipeline.HMain (Ix := Unit) (Name := ℕ) (U := UR sig nD τ) (Lvl := ℕ) cfgs 0 defs₀ 𝒱₀ m (main (F := F)) (entry m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes an argument array: the region finds each as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window whose body leaves its block in place holds its block at every point, fetched there or not
    (when it is not fetched the index map has not moved). Window 0: -/
theorem found0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- and window 1. -/
theorem found1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the result's buffer -/

abbrev rIn : Rect S1024x128 := Rect.unit (s := S1024x128) ![0, 0] S1024x128.size inb_S1024x128_S1024x128_0_0
abbrev rOut : Rect S1024x1024 := Rect.unit (s := S1024x1024) ![0, 0] S1024x1024.size inb_S1024x1024_S1024x1024_0_0

/-- The result's staging buffer after the body: its one store, of the logistic of the product of the first block
    with the transpose of the second, over the whole buffer. -/
def tile (x0 x1 : Vec F S1024x128 .bf16) : Vec F S1024x1024 .f32 :=
  View.canon [⟨rOut, k0_pay1 (View.ld x0 rIn) (View.ld x1 rIn)⟩]

/-- The one store covers the buffer. -/
theorem tile_cover (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

set_option maxHeartbeats 1000000 in
/-- The body on whole staging memrefs, the inputs at contents `x0`, `x1` and the result at anything, runs to the
    inputs as they were and the result at `tile x0 x1`. -/
theorem sound_kernel (c : Dev nD) (E : Set ℕ) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024x1024 .f32) (harg4 : arg4.IsWhole)
    (x0 x1 : Vec F S1024x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tile x0 x1)) -∗ K ⟨⟩))
      ⊢ wp frame (wpE (defs₀ (F := F)) Variants.none c none) E (cc0__decode_kernel i arg2 harg2 arg3 harg3 arg4 harg4) K := by
  simp only [cc0__decode_kernel_eq_skeleton]; unfold cc0__decode_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_cover _)

/-! ## The proof data -/

/-- The pipeline's proof data on core `c`: the arrays as the region finds them; after the body each input's buffer
    at its block and the result's at `tile` of the two blocks; the invariant the scoped buffers no window stages;
    nothing owed; the shared array's share halved between its two windows. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => tile (blockAt m c 0 t) (blockAt m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = entry m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = tile (blockAt m c 0 t) (blockAt m c 1 t) := by dsimp only [dats]

theorem found0 (c : Dev nD) (t : Fin cfg0.N) (d) : (dats m 0 c).before 0 t d = blockAt m c 0 t :=
  found0_of m (dats m 0 c) (A_eq m c 0) (after0 m c) t d
theorem found1 (c : Dev nD) (t : Fin cfg0.N) (d) : (dats m 0 c).before 1 t d = blockAt m c 1 t :=
  found1_of m (dats m 0 c) (A_eq m c 1) (after1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ _ _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## Dealing the shared array -/

/-- The two buffers behind the three windows' arrays, whole at the entry contents, are the proof data's arrays at
    entry: the rounded embedding's full share splits into its two halves, one for each window that reads it. -/
theorem split_arrays (c : Dev nD) :
    (Pipeline.arrBufs spec0 c (entry m c) : sProp 𝕄) ⊢ (dats m 0 c).arrays ((dats m 0 c).arrAt · 0) := by
  unfold Pipeline.arrBufs Dat.arrays
  rw [show Finset.univ.image (Pipeline.arrRef spec0) = {main_v45, main_v46} from by decide, bigSep_W0,
    bigSep_insert (by decide), bigSep_singleton]
  have e0 : (cfg0.win 0).arr.view.set = Finset.univ := (arr_whole0 0).set_eq_univ
  have e2 : (cfg0.win 2).arr.view.set = Finset.univ := (arr_whole0 2).set_eq_univ
  rw [e0, e2, show (dats m 0 c).share 0 = fullShare.left from rfl, show (dats m 0 c).share 1 = fullShare.right from rfl,
    show (dats m 0 c).share 2 = fullShare from rfl]
  show iprop((((c.tc : Thread nD τ).loc main_v45) ↦{fullShare} entry m c main_v45) ∗ (((c.tc : Thread nD τ).loc main_v46) ↦{fullShare} entry m c main_v46)) ⊢ _
  iintro ⟨H45, H46⟩
  ihave H := (pointsTo_share (PosShare.mem_left_op_right fullShare)).1 $$ H45
  icases H with ⟨HL, HR⟩
  isplitl [HL]; · iexact HL
  isplitl [HR]; · iexact HR
  iexact H46

/-! ## The run and the frame -/

set_option backward.isDefEq.respectTransparency.types false in
/-- From any memory with zero counters every weakly fair execution of the program terminates; at the end the result
    array holds what the library computes from the proof data (its entry contents overwritten tile by tile by what the
    body left), the rounded embedding is as the region found it, and so is every other unscoped buffer. -/
theorem run_main : θ_run defs (onTc (τ := τ) (main (F := F))) (s₀ m ρ) (Pipeline.FramePost cfgs (dats m) 0 (entry m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := entry m) (hmain := hmain m Variants.none)
    (hsplit := split_arrays m) (hin := fun _ => .rfl) (hout := fun _ => .rfl)

/-- The argument arrays end unchanged: none is a window's array, and no host operation writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (entry_arg0 m c),
     ((h c).2 main_arg1 (Pipeline.mem_restRefs_of main_arg1 (by decide) (by decide))).trans (entry_arg1 m c),
     ((h c).2 main_arg2 (Pipeline.mem_restRefs_of main_arg2 (by decide) (by decide))).trans (entry_arg2 m c),
     ((h c).2 main_arg3 (Pipeline.mem_restRefs_of main_arg3 (by decide) (by decide))).trans (entry_arg3 m c)⟩) (run_main m ρ)

end Cert.KernelIdeal.Decode

end
-- ==== Proof.GramSpec.lean ====
/-
  The decode step of a graph auto-encoder, as one function on the extended reals.

  From an embedding z of 8192 nodes in 128 dimensions the reconstructed adjacency has, at (I, J), the logistic
  function of the inner product of rows I and J of z:

      recon z (I, J) = logistic (∑ₖ z (I, k) · z (J, k)).

  Both programs compute this: the kernel tile by tile, multiplying a block of rows by the transpose of another
  block of rows; the reference as one product of z with its transpose followed by 1 / (1 + exp (−s)), which on
  the extended reals is the logistic function by definition.
-/
import Idealize.ShloMosaic.PureOps.Ideal.Laws
import Idealize.ShloMosaic.Lib.ValueIdx

noncomputable section

namespace Cert.Gram

open Idealize.ShloMosaic

/-- The embedding's shape and the adjacency's. -/
abbrev Emb : Shape := ⟨2, ![8192, 128]⟩
abbrev Adj : Shape := ⟨2, ![8192, 8192]⟩

/-- Row `r`, column `k` of the embedding. -/
abbrev cell (r : Fin 8192) (k : Fin 128) : Emb.Idx := ValueIdx.ix2 r k

/-- The reconstructed adjacency: the logistic of the inner product of two rows. -/
def recon (z : Emb.Idx → EReal) : Adj.Idx → EReal := fun i =>
  Ideal.logistic (∑ k : Fin 128, z (cell ⟨(i 0).val, (i 0).isLt⟩ k) * z (cell ⟨(i 1).val, (i 1).isLt⟩ k))

theorem recon_apply (z : Emb.Idx → EReal) (I J : Fin 8192) :
    recon z (ValueIdx.ix2 I J) = Ideal.logistic (∑ k : Fin 128, z (cell I k) * z (cell J k)) := rfl

/-- `recon` at an index named by its two coordinates. -/
theorem recon_of_coords (z : Emb.Idx → EReal) (i : Adj.Idx) (I J : Fin 8192) (h0 : (i 0).val = I.val) (h1 : (i 1).val = J.val) :
    recon z i = Ideal.logistic (∑ k : Fin 128, z (cell I k) * z (cell J k)) := by
  have e : i = ValueIdx.ix2 I J := funext fun a => Fin.ext (by
    match a with
    | ⟨0, _⟩ => exact h0
    | ⟨1, _⟩ => exact h1)
  rw [e]; rfl

end Cert.Gram

end
-- ==== Proof.KernelIdealValue.lean ====
/-
  What the decode kernel's run leaves, on the extended reals: the result array is `Gram.recon` of the
  embedding the host operations built, and the embedding itself is returned as the host operations left it.

  Tile (i, j) of the result is written at grid point t = 8·i + j from two staged blocks of the rounded
  embedding zb: rows 1024·i … of zb (window 0) and rows 1024·j … of zb (window 1). The body's product contracts
  the column axis of both blocks, so its entry (p, q) is ∑ₖ zb (1024·i + p, k) · zb (1024·j + q, k), added to a
  zero accumulator, and the logistic of it is exactly `recon zb` at (1024·i + p, 1024·j + q). The 64 tiles
  cover the 8192 × 8192 array. On the extended reals rounding to bf16 is the identity, so zb is the embedding.
-/
import proofs.«137021_j65712999629271_1_alg».proof.Proof.KernelIdealFrame
import proofs.«137021_j65712999629271_1_alg».proof.Proof.GramSpec
import Idealize.ShloMosaic.Lib.Pipeline.Value
import Idealize.ShloMosaic.Lib.ValueIdx
import Idealize.ShloMosaic.PureOps.Ideal.Laws

set_option maxRecDepth 16384

noncomputable section

namespace Cert.KernelIdeal.DecodeValue

open Cert.KernelIdeal Cert.KernelIdeal.Gen Cert.KernelIdeal.Decode Cert.Gram
open Idealize.ShloMosaic Idealize.ShloMosaic.TcCoe Idealize.SL.Sem Idealize.ShloMosaic.ValueIdx
open Idealize.ShloMosaic.Pipeline (Dat Cfg Window)

/-! ## The body's product, read at an entry -/

theorem lhs_row (i : S1024x1024.Idx) (q : dot_S1024x128_S1024x128_S1024x1024_1_1_0_0_n_n.contr.Idx) :
    (dot_S1024x128_S1024x128_S1024x1024_1_1_0_0_n_n.lhsIdx i q 0).val = (i 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
theorem lhs_col (i : S1024x1024.Idx) (q : dot_S1024x128_S1024x128_S1024x1024_1_1_0_0_n_n.contr.Idx) :
    (dot_S1024x128_S1024x128_S1024x1024_1_1_0_0_n_n.lhsIdx i q 1).val = (q ⟨0, by decide⟩).val :=
  dot_S1024x128_S1024x128_S1024x1024_1_1_0_0_n_n.lhsIdx_val_of_single rfl i q
theorem rhs_row (i : S1024x1024.Idx) (q : dot_S1024x128_S1024x128_S1024x1024_1_1_0_0_n_n.contr.Idx) :
    (dot_S1024x128_S1024x128_S1024x1024_1_1_0_0_n_n.rhsIdx i q 0).val = (i 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl
theorem rhs_col (i : S1024x1024.Idx) (q : dot_S1024x128_S1024x128_S1024x1024_1_1_0_0_n_n.contr.Idx) :
    (dot_S1024x128_S1024x128_S1024x1024_1_1_0_0_n_n.rhsIdx i q 1).val = (q ⟨0, by decide⟩).val :=
  dot_S1024x128_S1024x128_S1024x1024_1_1_0_0_n_n.rhsIdx_val_of_single rfl i q

/-- The body's stored value at (p, q): the logistic of the inner product of row p of the first block with row q
    of the second (the product contracts both blocks' column axis; the accumulator is the zero splat). -/
theorem pay_apply (x0 x1 : Vec Ideal S1024x128 .bf16) (p q : Fin 1024) :
    k0_pay1 (F := Ideal) x0 x1 (ix2 p q) = Ideal.logistic (∑ k : Fin 128, x0 (ix2 p k) * x1 (ix2 q k)) := by
  unfold k0_pay1
  rw [shapeCast_self, shapeCast_self]
  show Ideal.logistic (FloatOps.matmul (F := Ideal) dot_S1024x128_S1024x128_S1024x1024_1_1_0_0_n_n none x0 x1 (constant (F := Ideal) S1024x1024 .f32 0x00000000#32) (ix2 p q)) = _
  rw [Ideal.matmul_constant_zero_apply, ← Equiv.sum_comp (ValueIdx.contrEquiv1 dot_S1024x128_S1024x128_S1024x1024_1_1_0_0_n_n 128 rfl rfl).symm]
  refine congrArg Ideal.logistic (Finset.sum_congr rfl fun k _ => ?_)
  have hk := ValueIdx.contrEquiv1_symm_val dot_S1024x128_S1024x128_S1024x1024_1_1_0_0_n_n 128 rfl rfl k
  have el : dot_S1024x128_S1024x128_S1024x1024_1_1_0_0_n_n.lhsIdx (ix2 p q) ((ValueIdx.contrEquiv1 dot_S1024x128_S1024x128_S1024x1024_1_1_0_0_n_n 128 rfl rfl).symm k) = ix2 p k := funext fun a => Fin.ext (by
    match a with
    | ⟨0, _⟩ => exact lhs_row _ _
    | ⟨1, _⟩ => exact (lhs_col _ _).trans hk)
  have er : dot_S1024x128_S1024x128_S1024x1024_1_1_0_0_n_n.rhsIdx (ix2 p q) ((ValueIdx.contrEquiv1 dot_S1024x128_S1024x128_S1024x1024_1_1_0_0_n_n 128 rfl rfl).symm k) = ix2 q k := funext fun a => Fin.ext (by
    match a with
    | ⟨0, _⟩ => exact rhs_row _ _
    | ⟨1, _⟩ => exact (rhs_col _ _).trans hk)
  rw [el, er]

/-! ## From tiles to the array -/

variable (m : (ℓ : Loc nD τ sig) → Buf (Elt Ideal) ℓ) (ρ : Dev nD → PrngReg)

/-- The rounded embedding as the region finds it, and the embedding before the rounding. -/
abbrev zb (c : Dev nD) : Emb.Idx → EReal := entry m c main_v45
abbrev z (c : Dev nD) : Emb.Idx → EReal := entry m c main_v44

theorem hz : (![0, 0] : Fin 2 → Nat) = fun _ => 0 := funext fun a => by fin_cases a <;> rfl

/-- The index maps over the grid: window 0 follows the result's row tile, window 1 its column tile, both at column
    block 0; the result's tile indices stay below 8. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 7 :=
  (by decide +kernel : ∀ t : Fin grid0.N, _)

/-- Every tile is some point's. -/
theorem idx_onto : ∀ (q0 q1 : Fin 8), ∃ t : Fin cfg0.N, win0_2.index t = ![q0.val, q1.val] :=
  (by decide +kernel : ∀ (q0 q1 : Fin 8), ∃ t : Fin grid0.N, win0_2.index t = ![q0.val, q1.val])

/-- An entry of window 0's block at point `t` is the entry of zb in the result tile's row range. -/
theorem block0_apply (c : Dev nD) (t : Fin cfg0.N) (p : Fin 1024) (k : Fin 128) (r : Fin 8192)
    (hr : r.val = win0_2.index t (0 : Fin 2) * 1024 + p.val) : blockAt m c 0 t (ix2 p k) = zb m c (cell r k) := by
  obtain ⟨e0, e1, e2, e3, e4, e5⟩ := idx_facts t
  unfold blockAt
  rw [View.read_apply]
  show zb m c _ = zb m c _
  congr 1
  funext a
  apply Fin.ext
  match a with
  | ⟨0, _⟩ => show win0_0.index t (0 : Fin 2) * 1024 + 1 * p.val = r.val; omega
  | ⟨1, _⟩ => show win0_0.index t (1 : Fin 2) * 128 + 1 * k.val = k.val; omega

/-- An entry of window 1's block at point `t` is the entry of zb in the result tile's COLUMN range: the second
    factor's rows are the result's columns. -/
theorem block1_apply (c : Dev nD) (t : Fin cfg0.N) (q : Fin 1024) (k : Fin 128) (r : Fin 8192)
    (hr : r.val = win0_2.index t (1 : Fin 2) * 1024 + q.val) : blockAt m c 1 t (ix2 q k) = zb m c (cell r k) := by
  obtain ⟨e0, e1, e2, e3, e4, e5⟩ := idx_facts t
  unfold blockAt
  rw [View.read_apply]
  show zb m c _ = zb m c _
  congr 1
  funext a
  apply Fin.ext
  match a with
  | ⟨0, _⟩ => show win0_1.index t (0 : Fin 2) * 1024 + 1 * q.val = r.val; omega
  | ⟨1, _⟩ => show win0_1.index t (1 : Fin 2) * 128 + 1 * k.val = k.val; omega

/-- Reading a whole-array function through point `t`'s tile of the result: the function at the tile's index. -/
theorem tile_read (t : Fin cfg0.N) (G : S8192x8192.Idx → EReal) (y : S1024x1024.Idx) :
    ((cfg0.win 2).blk t).view.read (Elt Ideal) G y = G (((cfg0.win 2).blk t).view.emb y) := by
  rw [View.read_apply]
  show G _ = G _
  rfl

/-- What point `t` writes back is tile `t` of `recon zb`. -/
theorem flushed_eq (c : Dev nD) (t : Fin cfg0.N) :
    (dats m 0 c).flushed 2 t = ((cfg0.win 2).blk t).view.read (Elt Ideal) (recon (zb m c)) := by
  show (cfg0.win 2).cut (grid0.coords t) ((dats m 0 c).after 2 t) = _
  rw [after2]
  unfold tile
  rw [View.canon_unit_zero hz]
  simp only [View.ld_unit_zero (S := S1024x128) hz]
  obtain ⟨e0, e1, e2, e3, e4, e5⟩ := idx_facts t
  funext j
  obtain ⟨p, q, rfl⟩ : ∃ (p q : Fin 1024), j = ix2 p q := ⟨j 0, j 1, eq_ix2 j⟩
  have hp := p.isLt
  have hq := q.isLt
  refine (pay_apply (blockAt m c 0 t) (blockAt m c 1 t) p q).trans ?_
  refine Eq.trans ?_ (tile_read t (recon (zb m c)) (ix2 p q)).symm
  have hR : win0_2.index t (0 : Fin 2) * 1024 + p.val < 8192 := by omega
  have hC : win0_2.index t (1 : Fin 2) * 1024 + q.val < 8192 := by omega
  refine Eq.trans ?_ (recon_of_coords (zb m c) _ ⟨win0_2.index t (0 : Fin 2) * 1024 + p.val, hR⟩
    ⟨win0_2.index t (1 : Fin 2) * 1024 + q.val, hC⟩ ?_ ?_).symm
  · refine congrArg Ideal.logistic (Finset.sum_congr rfl fun k _ => ?_)
    rw [block0_apply m c t p k ⟨win0_2.index t (0 : Fin 2) * 1024 + p.val, hR⟩ rfl,
      block1_apply m c t q k ⟨win0_2.index t (1 : Fin 2) * 1024 + q.val, hC⟩ rfl]
  · show win0_2.index t (0 : Fin 2) * 1024 + 1 * p.val = win0_2.index t (0 : Fin 2) * 1024 + p.val
    omega
  · show win0_2.index t (1 : Fin 2) * 1024 + 1 * q.val = win0_2.index t (1 : Fin 2) * 1024 + q.val
    omega

/-- An index of the result is in point `t`'s tile iff each coordinate is in the tile's range. -/
theorem mem_tile (t : Fin cfg0.N) (i : S8192x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v46).slice (win0_2.rect t)).set ↔ _
  rw [View.set_slice_whole, Rect.mem_set_unit]
  exact Iff.rfl

/-- The 64 tiles cover the result. -/
theorem tiles_cover (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_tile]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The result array after the run. -/
theorem final (c : Dev nD) : (dats m 0 c).arrAt 2 cfg0.N = recon (zb m c) :=
  (dats m 0 c).arrAt_eq_of_cover 2 (recon (zb m c)) (fun t _ => flushed_eq m c t) tiles_cover

/-! ## The rounding, and the run read -/

/-- The last host operation rounds the embedding to bf16; on the extended reals a change of float format is the
    identity, so the array the two windows read is the embedding itself. -/
theorem zb_eq_z (c : Dev nD) : zb m c = z m c := by
  have e : ∀ b : Ref sig .tc, entry m c b
      = StableHlo.after hostOps0_2 (StableHlo.after (hostOps0 ++ hostOps0_1) (fun b => m (c, b))) (Proc.devRef .tc b) := fun b => by
    show StableHlo.after (List.flatten [hostOps0, hostOps0_1, hostOps0_2]) (fun b => m (c, b)) (Proc.devRef .tc b) = _
    rw [← StableHlo.after_append]
    simp only [List.flatten_cons, List.flatten_nil, List.append_nil, List.append_assoc]
  funext i
  show entry m c main_v45 i = entry m c main_v44 i
  rw [e main_v45, e main_v44]
  generalize StableHlo.after (hostOps0 ++ hostOps0_1) (fun b => m (c, b)) = W
  simp only [hostOps0_2, StableHlo.after_cons, StableHlo.after_nil]
  rw [StableHlo.unary_result', StableHlo.unary_result_ne (r := main_v44) (h := by decide)]
  rfl

/-- The kernel's run on the extended reals: the adjacency is `recon` of the embedding the host operations built, the
    embedding is returned as built, and the arguments are unchanged. -/
theorem run_value : θ_run defs (onTc (τ := τ) (main (F := Ideal))) ⟨m, fun _ => 0, ρ⟩ (fun r => ∀ c : Dev nD,
      r.2.mem ((c.tc : Thread nD τ).loc main_v46) = recon (z m c)
      ∧ r.2.mem ((c.tc : Thread nD τ).loc main_v44) = z m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 2).trans ((final m c).trans (congrArg recon (zb_eq_z m c))),
     (h c).2 main_v44 (Pipeline.mem_restRefs_of main_v44 (by decide) (by decide)),
     ((h c).2 main_arg0 (Pipeline.mem_restRefs_of main_arg0 (by decide) (by decide))).trans (entry_arg0 m c),
     ((h c).2 main_arg1 (Pipeline.mem_restRefs_of main_arg1 (by decide) (by decide))).trans (entry_arg1 m c),
     ((h c).2 main_arg2 (Pipeline.mem_restRefs_of main_arg2 (by decide) (by decide))).trans (entry_arg2 m c),
     ((h c).2 main_arg3 (Pipeline.mem_restRefs_of main_arg3 (by decide) (by decide))).trans (entry_arg3 m c)⟩) (run_main m ρ)

end Cert.KernelIdeal.DecodeValue

end
-- ==== Proof.RefValue.lean ====
/-
  The reference's two results on the extended reals: the embedding z, and the adjacency read as
  `Gram.recon z`.

  The reference transposes z, multiplies z by the transpose (so entry (I, J) of the product is
  ∑ₖ z (I, k) · z (J, k)), negates, exponentiates, adds one and divides one by the sum. On the extended reals
  1 / (1 + exp (−s)) is the logistic function of s by definition, conventions at ±∞ included.
-/
import proofs.«137021_j65712999629271_1_alg».proof.Proof.Gen.ReferenceIdeal.Read
import proofs.«137021_j65712999629271_1_alg».proof.Proof.GramSpec
import Idealize.ShloMosaic.Lib.IdealHost

noncomputable section

namespace Cert.ReferenceIdeal.DecodeRef

open Cert.ReferenceIdeal Cert.ReferenceIdeal.Gen Cert.ReferenceIdeal.Read Cert.ReferenceIdeal.Value Cert.Gram
open Idealize.ShloMosaic Idealize.ShloMosaic.TcCoe Idealize.SL.Sem

/-- The product's left index at (I, J), k is row I, column k of z; -/
theorem left_cell (i : S8192x8192.Idx) (k : Fin 128) : lidx_main_v46 i k = cell ⟨(i 0).val, (i 0).isLt⟩ k :=
  funext fun a => Fin.ext (by
    match a with
    | ⟨0, _⟩ => rfl
    | ⟨1, _⟩ => rfl)

/-- its right index, read through the transpose, is row J, column k of z. -/
theorem right_cell (i : S8192x8192.Idx) (k : Fin 128) : idx_main_v45 (ridx_main_v46 i k) = cell ⟨(i 1).val, (i 1).isLt⟩ k :=
  funext fun a => Fin.ext (by
    match a with
    | ⟨0, _⟩ => rfl
    | ⟨1, _⟩ => rfl)

/-- The adjacency stage is `recon` of the embedding stage, whatever the arguments. -/
theorem adj_stage (x0 : (⟨S8192x256, .f32⟩ : BufTy).Contents (Elt Ideal)) (x1 : (⟨S2x262144, .i32⟩ : BufTy).Contents (Elt Ideal))
    (x2 : (⟨S256x128, .f32⟩ : BufTy).Contents (Elt Ideal)) (x3 : (⟨S128, .f32⟩ : BufTy).Contents (Elt Ideal)) :
    val_main_v52 (F := Ideal) x0 x1 x2 x3 = recon (val_main_v44 (F := Ideal) x0 x1 x2 x3) := by
  funext i
  rw [val_main_v52_apply, val_main_v51_apply, val_main_cst_8_apply, val_main_v50_apply, val_main_v49_apply, val_main_cst_7_apply,
    val_main_v48_apply, val_main_v47_apply, val_main_v46_apply]
  simp only [val_main_v45_apply, left_cell, right_cell]
  generalize val_main_v44 (F := Ideal) x0 x1 x2 x3 = Z
  show Ideal.div (Ideal.ofBits .f32 0x3F800000#32) (Ideal.ofBits .f32 0x3F800000#32 + Ideal.exp (-(∑ k : Fin 128, Z (cell ⟨(i 0).val, (i 0).isLt⟩ k) * Z (cell ⟨(i 1).val, (i 1).isLt⟩ k)))) = _
  rw [Ideal.ofBits_one_f32]
  rfl

/-- The run's adjacency term is `recon` of the run's embedding term. -/
theorem out0_eq (m : (ℓ : Loc nD τ sig) → Buf (Elt Ideal) ℓ) (c : Dev nD) :
    res_out0 (F := Ideal) m c = recon (res_out1 (F := Ideal) m c) :=
  (val_main_v52_eq m c).trans ((adj_stage _ _ _ _).trans (congrArg recon (val_main_v44_eq m c).symm))

end Cert.ReferenceIdeal.DecodeRef

end
-- ==== Proof.Bridge.lean ====
/-
  The two idealized programs compute the same two results.

  Both build the node embedding z with the same host operations of the arguments: a dense layer x·W, the
  in-degree of every node with its self-loop (a scatter of ones), its inverse square root gathered at both ends
  of every edge, the messages scaled and scattered to their targets, the bias, the rectifier. Run from memories
  that agree on the arguments the two embeddings are therefore one array. The adjacency is `Gram.recon` of that
  embedding on both sides: the kernel's tiles assemble to it, and the reference's 1 / (1 + exp (−z·zᵀ)) is it
  by definition of the logistic function on the extended reals.
-/
import proofs.«137021_j65712999629271_1_alg».proof.Proof.KernelIdealValue
import proofs.«137021_j65712999629271_1_alg».proof.Proof.RefValue

noncomputable section

namespace Cert.Proof.Bridge

open Idealize.ShloMosaic Idealize.ShloMosaic.TcCoe Idealize.SL.Sem Idealize.ShloMosaic.StableHlo

set_option maxRecDepth 8192 in
set_option maxHeartbeats 4000000 in
/-- The embedding the reference returns is the embedding the kernel's host operations build, when the argument
    arrays agree: the same operations, one after the other, of the same arrays. -/
theorem embedding_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_out1 (F := Ideal) m' c = Cert.KernelIdeal.DecodeValue.z m c := by
  show Cert.ReferenceIdeal.Value.res_main_v44 m' c = _
  unfold Cert.ReferenceIdeal.Value.res_main_v44
  rw [h0, h1, h2, h3]
  refine Eq.symm ?_
  show StableHlo.after (List.flatten [Cert.KernelIdeal.Gen.hostOps0, Cert.KernelIdeal.Gen.hostOps0_1, Cert.KernelIdeal.Gen.hostOps0_2]) (fun b => m (c, b)) (Proc.devRef .tc Cert.KernelIdeal.main_v44) = _
  simp only [Cert.KernelIdeal.Gen.hostOps0, Cert.KernelIdeal.Gen.hostOps0_1, Cert.KernelIdeal.Gen.hostOps0_2, List.flatten_cons, List.flatten_nil, List.append_nil, List.cons_append, List.nil_append]
  after_results_simp <;> rfl

end Cert.Proof.Bridge

end
-- ==== Proof.lean ====
/-
  A graph auto-encoder's forward pass: one graph-convolution layer builds a node embedding z (8192 nodes,
  128 features) from the node features, the edge list, a weight matrix and a bias; the decoder reconstructs the
  adjacency as logistic (z · zᵀ), an 8192 × 8192 array. The program under proof builds z with host operations,
  rounds it to bf16 and computes the adjacency in a pipelined kernel over an 8 × 8 grid of 1024 × 1024 tiles,
  each tile the logistic of one block of rows times the transpose of another; the reference does the whole
  product at once and spells the logistic function as 1 / (1 + exp (−s)). Both return the adjacency and z.

  The frames. The kernel program terminates without a fault and leaves its arguments alone, at the word level
  and on the extended reals alike: the host operations are total functions of their operands, the kernel's two
  input windows read the same array (whose share is split between them) and its output window is written a
  whole tile at a time; no argument array is a window's array or a host operation's result. The reference is
  host operations only.

  The values, on the extended reals. Rounding to bf16 is the identity; a product into a zero accumulator is the
  plain sum of products; the sum over the feature axis is the same sum on both sides; the 64 tiles cover the
  array; and 1 / (1 + exp (−s)) is the logistic function by definition. The embedding is literally the same
  composition of host operations in both programs. No law used needs the inputs finite.
-/
import proofs.«137021_j65712999629271_1_alg».proof.Defs
import proofs.«137021_j65712999629271_1_alg».proof.Proof.Gen.Kernel
import proofs.«137021_j65712999629271_1_alg».proof.Proof.Gen.KernelIdeal
import proofs.«137021_j65712999629271_1_alg».proof.Proof.Gen.ReferenceIdeal
import proofs.«137021_j65712999629271_1_alg».proof.Proof.Gen.Pre_finite_inputs
import proofs.«137021_j65712999629271_1_alg».proof.Proof.KernelFrame
import proofs.«137021_j65712999629271_1_alg».proof.Proof.Bridge
import Idealize.ShloMosaic.Adequacy
import Idealize.ShloMosaic.Init

noncomputable section

namespace Cert.Proof

open Idealize.ShloMosaic Idealize.SL.Sem

/-- The word-level program runs and leaves its arguments unchanged. -/
theorem frame_kernel : Cert.frame_Kernel := fun m ρ _ => Cert.Kernel.Decode.frame m ρ

/-- So does its reading on the extended reals. -/
theorem frame_kernelIdeal : Cert.frame_KernelIdeal := fun m ρ _ => Cert.KernelIdeal.Decode.frame m ρ

/-- The reference is host operations only: its run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the adjacency at `recon z` and the embedding
    at `z`, the embedding the kernel program's host operations build. -/
theorem algebraic : Cert.algebraic_KernelIdeal_ReferenceIdeal := by
  intro m ρ m' ρ' _ hagree
  refine ⟨fun c => Cert.Gram.recon (Cert.KernelIdeal.DecodeValue.z m c), fun c => Cert.KernelIdeal.DecodeValue.z m c,
    Cert.KernelIdeal.DecodeValue.run_value m ρ, ?_⟩
  refine (θ_run Cert.ReferenceIdeal.defs _ _).mono (fun _ h c => ?_) (Cert.ReferenceIdeal.Value.run (F := Ideal) m' ρ')
  have hz := Cert.Proof.Bridge.embedding_agree m m' c (hagree c).1 (hagree c).2.1 (hagree c).2.2.1 (hagree c).2.2.2
  exact ⟨(h c).1.trans ((Cert.ReferenceIdeal.DecodeRef.out0_eq m' c).trans (congrArg Cert.Gram.recon hz)),
    (h c).2.1.trans hz, (h c).2.2⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
